-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x12288 : Shape := ⟨3, ![8, 16, 12288]⟩
abbrev S6144x6144 : Shape := ⟨2, ![6144, 6144]⟩
abbrev S_ : Shape := ⟨0, ![]⟩

class Facts : Prop where
  bcast_S_S8x16x12288 : S_.BroadcastsInDim S8x16x12288 (![] : Fin 0 → Fin S8x16x12288.rank)
  reducesTo_S8x16x12288_S_d0_1_2 : S8x16x12288.ReducesTo [0, 1, 2] S_
  h_S_ : 0 < S_.numel
  bcast_S_S6144x6144 : S_.BroadcastsInDim S6144x6144 (![] : Fin 0 → Fin S6144x6144.rank)
  reducesTo_S6144x6144_S_d0_1 : S6144x6144.ReducesTo [0, 1] S_

variable [Facts]

def fn {F : FTy → Type} [FloatOps F] (main_arg0 : FVec F S8x16x12288 .f32) (main_arg1 : FVec F S6144x6144 .f32) : IVec S_ 1 :=
  let main_v0 : FVec F S8x16x12288 .f32 := Host.absf main_arg0
  let main_cst : FVec F S_ .f32 := constant S_ .f32 0x7F800000#32
  let main_v1 : FVec F S8x16x12288 .f32 := broadcastInDim S8x16x12288 ![] bcast_S_S8x16x12288 main_cst
  let main_v2 : IVec S8x16x12288 1 := cmpf .olt main_v0 main_v1
  let main_c : IVec S_ 1 := constantI S_ 1 1#1
  let main_v3 : IVec S_ 1 := (fun x v => Host.reduce IntOp.andi x v reducesTo_S8x16x12288_S_d0_1_2 h_S_) main_v2 main_c
  let main_v4 : FVec F S6144x6144 .f32 := Host.absf main_arg1
  let main_cst_0 : FVec F S_ .f32 := constant S_ .f32 0x7F800000#32
  let main_v5 : FVec F S6144x6144 .f32 := broadcastInDim S6144x6144 ![] bcast_S_S6144x6144 main_cst_0
  let main_v6 : IVec S6144x6144 1 := cmpf .olt main_v4 main_v5
  let main_c_1 : IVec S_ 1 := constantI S_ 1 1#1
  let main_v7 : IVec S_ 1 := (fun x v => Host.reduce IntOp.andi x v reducesTo_S6144x6144_S_d0_1 h_S_) main_v6 main_c_1
  let main_v8 : IVec S_ 1 := andi main_v3 main_v7
  main_v8
-- ==== Kernel.lean ====
abbrev S8x16x12288 : Shape := ⟨3, ![8, 16, 12288]⟩
abbrev S6144x6144 : Shape := ⟨2, ![6144, 6144]⟩
abbrev S8x16x6144 : Shape := ⟨3, ![8, 16, 6144]⟩
abbrev S128x6144 : Shape := ⟨2, ![128, 6144]⟩
abbrev S6144x512 : Shape := ⟨2, ![6144, 512]⟩
abbrev S128x512 : Shape := ⟨2, ![128, 512]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S8x16x12288, .f32⟩
  | .hbm, ⟨1, _⟩ => ⟨S6144x6144, .f32⟩
  | .hbm, ⟨2, _⟩ => ⟨S8x16x6144, .f32⟩
  | .hbm, ⟨3, _⟩ => ⟨S128x6144, .f32⟩
  | .hbm, ⟨4, _⟩ => ⟨S128x6144, .f32⟩
  | .hbm, ⟨5, _⟩ => ⟨S8x16x6144, .f32⟩
  | .hbm, ⟨6, _⟩ => ⟨S_, .f32⟩
  | .hbm, ⟨7, _⟩ => ⟨S8x16x6144, .f32⟩
  | .hbm, ⟨8, _⟩ => ⟨S8x16x12288, .f32⟩
  | .local _ .vmem, ⟨0, _⟩ => ⟨S128x6144, .f32⟩
  | .local _ .vmem, ⟨1, _⟩ => ⟨S6144x512, .f32⟩
  | .local _ .vmem, ⟨2, _⟩ => ⟨S6144x512, .f32⟩
  | .local _ .vmem, ⟨3, _⟩ => ⟨S128x512, .f32⟩
  | .local _ .vmem, ⟨4, _⟩ => ⟨S128x512, .f32⟩
  | _, _ => ⟨S8x16x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8x16x12288_S8x16x6144_0_0_0 : S8x16x12288.Slices ![0, 0, 0] S8x16x6144
  shapeCasts_S8x16x6144_S128x6144 : S8x16x6144.ShapeCasts S128x6144
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  bitsLt_bf16_f32 : FTy.bits .bf16 < FTy.bits .f32
  inb_S6144x512_S6144x512_0_0 : ∀ a, (![0, 0] : Fin 2 → Nat) a + S6144x512.size a ≤ S6144x512.size a
  h_S6144x512 : 0 < S6144x512.numel
  inb_S128x512_S128x512_0_0 : ∀ a, (![0, 0] : Fin 2 → Nat) a + S128x512.size a ≤ S128x512.size a
  h_S128x512 : 0 < S128x512.numel
  shapeCasts_S128x6144_S8x16x6144 : S128x6144.ShapeCasts S8x16x6144
  bcast_S_S8x16x6144 : S_.BroadcastsInDim S8x16x6144 (![] : Fin 0 → Fin S8x16x6144.rank)
  concatenates_S8x16x6144_S8x16x6144_S8x16x12288_d2 : Shape.Concatenates [S8x16x6144, S8x16x6144] S8x16x12288 2
  dot_S128x6144_S6144x512_S128x512_1_0_0_1_n_n_wf : DotDims.WF S128x6144 S6144x512 S128x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x6144.size a ≤ S128x6144.size a
  hwx0_0 : ∀ i : grid0.Coords, EltTy.bits .f32 = 32 ∨ (Rect.block (s := S128x6144) S128x6144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x512.size a ≤ S6144x6144.size a
  hwx0_1 : ∀ i : grid0.Coords, EltTy.bits .f32 = 32 ∨ (Rect.block (s := S6144x6144) S6144x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x6144.size a
  hwx0_2 : ∀ i : grid0.Coords, EltTy.bits .f32 = 32 ∨ (Rect.block (s := S128x6144) S128x512.size (cc0_transform_2 i) (hinb0_2 i)).WholeWords (EltTy.packing .f32)

variable [Facts₀]

def dot_S128x6144_S6144x512_S128x512_1_0_0_1_n_n : DotDims S128x6144 S6144x512 S128x512 where
  lhsContracting := [1]
  rhsContracting := [0]
  lhsNonContracting := [0]
  rhsNonContracting := [1]
  lhsBatch := []
  rhsBatch := []
  wf := dot_S128x6144_S6144x512_S128x512_1_0_0_1_n_n_wf

abbrev win0_0 : Pipeline.Window sig grid0 :=
  Pipeline.Window.ofSpec (Memref.whole main_v1) S128x6144.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6144x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x12288 : Shape := ⟨3, ![8, 16, 12288]⟩
abbrev S6144x6144 : Shape := ⟨2, ![6144, 6144]⟩
abbrev S8x16x6144 : Shape := ⟨3, ![8, 16, 6144]⟩
abbrev S_ : Shape := ⟨0, ![]⟩
abbrev S1 : Shape := ⟨1, ![1]⟩

abbrev nBuf : Space → Nat
  | .hbm => 17
  | .vmem => 0
  | .smem => 0
  | _ => 0

abbrev bufTy : (tb : Table) → Fin (tcTables nBuf tb) → BufTy
  | .hbm, ⟨0, _⟩ => ⟨S8x16x12288, .f32⟩
  | .hbm, ⟨1, _⟩ => ⟨S6144x6144, .f32⟩
  | .hbm, ⟨2, _⟩ => ⟨S8x16x6144, .f32⟩
  | .hbm, ⟨3, _⟩ => ⟨S8x16x6144, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x16x6144, .f32⟩
  | .hbm, ⟨8, _⟩ => ⟨S8x16x6144, .f32⟩
  | .hbm, ⟨9, _⟩ => ⟨S_, .f32⟩
  | .hbm, ⟨10, _⟩ => ⟨S8x16x6144, .f32⟩
  | .hbm, ⟨11, _⟩ => ⟨S8x16x6144, .f32⟩
  | .hbm, ⟨12, _⟩ => ⟨S_, .f32⟩
  | .hbm, ⟨13, _⟩ => ⟨S8x16x12288, .f32⟩
  | .hbm, ⟨14, _⟩ => ⟨S_, .i32⟩
  | .hbm, ⟨15, _⟩ => ⟨S1, .i32⟩
  | .hbm, ⟨16, _⟩ => ⟨S8x16x12288, .f32⟩
  | _, _ => ⟨S8x16x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8x16x12288_S8x16x6144_0_0_0 : S8x16x12288.Slices ![0, 0, 0] S8x16x6144
  bcast_S_S8x16x6144 : S_.BroadcastsInDim S8x16x6144 (![] : Fin 0 → Fin S8x16x6144.rank)
  bcast_S_S8x16x12288 : S_.BroadcastsInDim S8x16x12288 (![] : Fin 0 → Fin S8x16x12288.rank)
  bcast_S_S1 : S_.BroadcastsInDim S1 (![] : Fin 0 → Fin S1.rank)
  dot_S8x16x6144_S6144x6144_S8x16x6144_2_0_01_1_n_n_wf : DotDims.WF S8x16x6144 S6144x6144 S8x16x6144 [2] [0] [0, 1] [1] [] []
  scatter_S8x16x12288_S1_S8x16x6144_012_n_2_0_wf : ScatterDims.WF S8x16x12288 S1 S8x16x6144 [0, 1, 2] [] [2] 0

variable [Facts₀]

def dot_S8x16x6144_S6144x6144_S8x16x6144_2_0_01_1_n_n : DotDims S8x16x6144 S6144x6144 S8x16x6144 where
  lhsContracting := [2]
  rhsContracting := [0]
  lhsNonContracting := [0, 1]
  rhsNonContracting := [1]
  lhsBatch := []
  rhsBatch := []
  wf := dot_S8x16x6144_S6144x6144_S8x16x6144_2_0_01_1_n_n_wf
def scatter_S8x16x12288_S1_S8x16x6144_012_n_2_0 : ScatterDims S8x16x12288 S1 S8x16x6144 where
  updateWindowDims := [0, 1, 2]
  insertedWindowDims := []
  scatterDimsToOperandDims := [2]
  indexVectorDim := 0
  wf := scatter_S8x16x12288_S1_S8x16x6144_012_n_2_0_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Spec.lean ====
/-
  The function both programs compute, over the extended reals.

  The input x is an [8, 16, 12288] array: 8 × 16 signals on a sphere of 12288 pixels, of which the first 6144 (the
  upper hemisphere) are the valid ones. The response matrix r is [6144, 6144]. The mixture of signal (b, c) at valid
  pixel j is the sum over the valid pixels k of x[b, c, k] · r[k, j], clipped to the interval between the two float
  constants 0 and 1 (first raised to at least the lower one, then lowered to at most the upper one). The result puts
  the mixture back on the valid pixels and the constant 0 on the other 6144.

  The two constants are kept as the values their bit patterns denote: both programs spell the same patterns, so
  nothing here needs to know which reals they are.
-/
import Idealize.ShloMosaic.Lib.ValueIdx
import Idealize.ShloMosaic.PureOps.Ideal.Laws

noncomputable section

namespace Cert.MixClip

open Idealize.ShloMosaic Idealize.ShloMosaic.ValueIdx

/-- The lower clipping bound, and the value of every invalid pixel: the float pattern of 0. -/
abbrev lower : EReal := Ideal.ofBits .f32 0x00000000#32
/-- The upper clipping bound: the float pattern of 1. -/
abbrev upper : EReal := Ideal.ofBits .f32 0x3F800000#32

/-- Valid pixel k as a pixel of the whole sphere. -/
abbrev pix (k : Fin 6144) : Fin 12288 := ⟨k.val, Nat.lt_of_lt_of_le k.isLt (by decide)⟩

/-- A value clipped: raised to the lower bound, then lowered to the upper one. -/
def clip (v : EReal) : EReal := min upper (max lower v)

/-- The clipped mixture of signal (b, c) at valid pixel j. -/
def mix (x : (⟨3, ![8, 16, 12288]⟩ : Shape).Idx → EReal) (r : (⟨2, ![6144, 6144]⟩ : Shape).Idx → EReal)
    (b : Fin 8) (c : Fin 16) (j : Fin 6144) : EReal :=
  clip (∑ k : Fin 6144, x (ix3 b c (pix k)) * r (ix2 k j))

/-- The result: the clipped mixture on the valid pixels, the lower constant elsewhere. -/
def result (x : (⟨3, ![8, 16, 12288]⟩ : Shape).Idx → EReal) (r : (⟨2, ![6144, 6144]⟩ : Shape).Idx → EReal) :
    (⟨3, ![8, 16, 12288]⟩ : Shape).Idx → EReal := fun i =>
  if h : (i 2).val < 6144 then mix x r (i 0) (i 1) ⟨(i 2).val, h⟩ else lower

/-- The same mixture with the 8 × 16 signals laid out as the 128 rows of a matrix (signal (b, c) is row 16 b + c):
    entry (p, j) of the clipped product of a [128, 6144] matrix with the response matrix. -/
def rows (a : (⟨2, ![128, 6144]⟩ : Shape).Idx → EReal) (r : (⟨2, ![6144, 6144]⟩ : Shape).Idx → EReal) :
    (⟨2, ![128, 6144]⟩ : Shape).Idx → EReal := fun i =>
  clip (∑ k : Fin 6144, a (ix2 (i 0) k) * r (ix2 k (i 1)))

end Cert.MixClip

end
-- ==== Proof.KernelPayload.lean ====
/-
  What the kernel body stores, read at an entry.

  One grid point holds the whole [128, 6144] signal matrix and a [6144, 512] column panel of the response matrix. The
  body's stored value is the product of the two (the change of float format before the product is the identity on
  extended reals, and the product into a zero accumulator is the plain sum over the 6144 contracted pixels), raised to
  the lower constant and lowered to the upper one. So entry (p, q) of the stored [128, 512] block is the clipped sum
  over k of the signal matrix at (p, k) times the panel at (k, q).
-/
import proofs.«128235_j3118146257523_1_alg».proof.Proof.Gen.KernelIdeal.Skeleton
import proofs.«128235_j3118146257523_1_alg».proof.Proof.LibRowOps
import proofs.«128235_j3118146257523_1_alg».proof.Proof.Spec
import Idealize.ShloMosaic.Lib.Pipeline.Value

noncomputable section

namespace Cert.KernelIdeal.MixValue

open Idealize.ShloMosaic Idealize.ShloMosaic.ValueIdx Cert.KernelIdeal Cert.KernelIdeal.Gen Cert.MixClip

/-- The body's product is the plain one: rows by contraction times contraction by columns. -/
theorem dot_plain : dot_S128x6144_S6144x512_S128x512_1_0_0_1_n_n = DotDims.plain 128 6144 512 := rfl

/-- Entry (p, q) of the stored block: the clipped sum over the contracted pixels. -/
theorem pay_apply (x0 : Vec Ideal S128x6144 .f32) (x1 : Vec Ideal S6144x512 .f32) (p : Fin 128) (q : Fin 512) :
    k0_pay1 (F := Ideal) x0 x1 (ix2 p q) = clip (∑ k : Fin 6144, x0 (ix2 p k) * x1 (ix2 k q)) := by
  unfold k0_pay1 clip
  show min upper (max lower (FloatOps.matmul (F := Ideal) dot_S128x6144_S6144x512_S128x512_1_0_0_1_n_n none
      (truncf .bf16 (shapeCast S128x6144 x0 shapeCasts_S128x6144_S128x6144) bitsLt_bf16_f32)
      (truncf .bf16 x1 bitsLt_bf16_f32) (constant (F := Ideal) S128x512 .f32 0x00000000#32) (ix2 p q))) = _
  rw [shapeCast_self, dot_plain]
  exact congrArg (fun v => min upper (max lower v))
    (Cert.LibRowOps.matmul_plain_zero_apply 128 6144 512 (φ₁ := .bf16) (φ₂ := .bf16) x0 x1 p q)

end Cert.KernelIdeal.MixValue

end
-- ==== Proof.KernelBlocks.lean ====
/-
  From the blocks to the array: what the region leaves in its output array.

  The grid has 12 points. At point t the signal window is the whole [128, 6144] matrix (block (0, 0)), the response
  window is the column panel (0, t) of 512 columns, and the output window is the column panel (0, t) of the
  [128, 6144] output. So what point t writes back is the panel t of ONE matrix: entry (p, j) is the clipped sum over k
  of the signal matrix at (p, k) times the response matrix at (k, j), the column j = 512 t + q read through the panel.
  The 12 panels tile the output (column j lies in panel j / 512), so after the run the whole output array is that
  matrix.
-/
import proofs.«128235_j3118146257523_1_alg».proof.Proof.Gen.KernelIdeal.Frame
import proofs.«128235_j3118146257523_1_alg».proof.Proof.KernelPayload

set_option maxRecDepth 16384

noncomputable section

namespace Cert.KernelIdeal.MixValue

open Idealize.ShloMosaic Idealize.ShloMosaic.TcCoe Idealize.ShloMosaic.ValueIdx Idealize.SL.Sem
open Idealize.ShloMosaic.Pipeline (Dat)
open Cert.KernelIdeal Cert.KernelIdeal.Gen Cert.MixClip

variable (m : (ℓ : Loc nD τ sig) → Buf (Elt Ideal) ℓ) (ρ : Dev nD → PrngReg)

/-- The signal matrix as the region finds it: the 128 signals' valid pixels. -/
abbrev signals (c : Dev nD) : S128x6144.Idx → EReal := V m c main_v1
/-- The response matrix as the region finds it. -/
abbrev responses (c : Dev nD) : S6144x6144.Idx → EReal := V m c main_arg1

theorem zero_offsets : (![0, 0] : Fin 2 → Nat) = fun _ => 0 := funext fun a => by fin_cases a <;> rfl

/-- The stored block at any entry, the entry given as an index of the block. -/
theorem pay_at (x0 : Vec Ideal S128x6144 .f32) (x1 : Vec Ideal S6144x512 .f32) (j : S128x512.Idx) :
    k0_pay1 (F := Ideal) x0 x1 j = clip (∑ k : Fin 6144, x0 (ix2 (j 0) k) * x1 (ix2 k (j 1))) :=
  (congrArg (k0_pay1 (F := Ideal) x0 x1) (eq_ix2 j)).trans (pay_apply x0 x1 (j 0) (j 1))

/-- The three index maps over the grid: the signal window stays at block (0, 0); the response and output windows are
    at column panel t. -/
theorem panel_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point t writes back is panel t of the clipped product of the signal matrix and the response matrix, as the
    region finds them. -/
theorem flushed_eq (c : Dev nD) (t : Fin cfg0.N) :
    (dats m 0 c).flushed 2 t = ((cfg0.win 2).blk t).view.read (Elt Ideal) (rows (signals m c) (responses m c)) := by
  show (cfg0.win 2).cut (grid0.coords t) ((dats m 0 c).after 2 t) = _
  rw [after0_2]
  unfold out0_2
  rw [View.canon_unit_zero zero_offsets]
  simp only [View.ld_unit_zero (S := S128x6144) zero_offsets, View.ld_unit_zero (S := S6144x512) zero_offsets]
  obtain ⟨e00, e01, e10, e11, e20, e21⟩ := panel_facts t
  funext j
  refine (pay_at (iblk m c 0 t) (iblk m c 1 t) j).trans ?_
  show clip (∑ k : Fin 6144, signals m c (((cfg0.win 0).blk t).view.emb (ix2 (j 0) k)) * responses m c (((cfg0.win 1).blk t).view.emb (ix2 k (j 1))))
    = clip (∑ k : Fin 6144, signals m c (ix2 ((((cfg0.win 2).blk t).view.emb j) 0) k) * responses m c (ix2 k ((((cfg0.win 2).blk t).view.emb j) 1)))
  refine congrArg clip (Finset.sum_congr rfl fun k _ => ?_)
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 6144 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 6144 + 1 * k.val = k.val; omega
    | ⟨1, _⟩ => show win0_1.index t (1 : Fin 2) * 512 + 1 * (j 1).val = win0_2.index t (1 : Fin 2) * 512 + 1 * (j 1).val; omega
  exact congrArg₂ (· * ·) (congrArg (signals m c) h0) (congrArg (responses m c) h1)

/-- An index of the output array is in point t's panel iff each coordinate is in the panel's range on its axis. -/
theorem mem_panel (t : Fin cfg0.N) (i : S128x6144.Idx) :
    i ∈ ((cfg0.win 2).blk t).view.set ↔ ∀ a : Fin 2, win0_2.index t a * S128x512.size a ≤ (i a).val ∧ (i a).val < win0_2.index t a * S128x512.size a + S128x512.size a := by
  show i ∈ ((View.whole main_v2).slice (win0_2.rect t)).set ↔ _
  rw [View.set_slice_whole, Rect.mem_set_unit]
  exact Iff.rfl

/-- Every entry of the output array is in the panel of the point its column names. -/
theorem panels_cover (i : S128x6144.Idx) :
    ∃ t : Fin cfg0.N, (cfg0.win 2).flush t = true ∧ i ∈ ((cfg0.win 2).blk t).view.set := by
  have hi0 : (i 0).val < 128 := (i 0).isLt
  have hi1 : (i 1).val < 6144 := (i 1).isLt
  have hN : cfg0.N = 12 := N_0
  have hlt : (i 1).val / 512 < cfg0.N := by rw [hN]; omega
  obtain ⟨-, -, -, -, e20, e21⟩ := panel_facts ⟨(i 1).val / 512, hlt⟩
  refine ⟨⟨(i 1).val / 512, hlt⟩, flush0_2 _, ?_⟩
  rw [mem_panel]
  intro a
  match a with
  | ⟨0, _⟩ =>
    show win0_2.index ⟨(i 1).val / 512, hlt⟩ (0 : Fin 2) * 128 ≤ (i 0).val ∧ (i 0).val < win0_2.index ⟨(i 1).val / 512, hlt⟩ (0 : Fin 2) * 128 + 128
    omega
  | ⟨1, _⟩ =>
    show win0_2.index ⟨(i 1).val / 512, hlt⟩ (1 : Fin 2) * 512 ≤ (i 1).val ∧ (i 1).val < win0_2.index ⟨(i 1).val / 512, hlt⟩ (1 : Fin 2) * 512 + 512
    rw [e21]
    show (i 1).val / 512 * 512 ≤ (i 1).val ∧ (i 1).val < (i 1).val / 512 * 512 + 512
    omega

/-- The output array after the run: the clipped product of the signal matrix and the response matrix. -/
theorem output_eq (c : Dev nD) : (dats m 0 c).arrAt 2 cfg0.N = rows (signals m c) (responses m c) :=
  (dats m 0 c).arrAt_eq_of_cover 2 (rows (signals m c) (responses m c)) (fun t _ => flushed_eq m c t) (panels_cover)

end Cert.KernelIdeal.MixValue

end
-- ==== Proof.Layout.lean ====
/-
  The three re-layouts around the product, read at an entry.

  The kernel's program cuts the valid half out of x, lays the 8 × 16 signals out as the 128 rows of a matrix (signal
  (b, c) is row 16 b + c, by row-major position), multiplies, lays the 128 rows out again as 8 × 16 signals, and puts
  6144 zeros behind each signal's 6144 mixtures. Read at an entry:
  • the signal matrix at (16 b + c, k) is x at (b, c, k), pixel k being a valid one;
  • the rows laid out again as signals: entry (b, c, j) is the matrix's entry (16 b + c, j);
  • two [8, 16, 6144] arrays joined along the last axis: entry (b, c, j) is the first array's when j < 6144 and the
    second array's entry (b, c, j - 6144) otherwise.
-/
import proofs.«128235_j3118146257523_1_alg».proof.Proof.Spec
import Idealize.ShloMosaic.Lib.Pipeline.Value

noncomputable section

namespace Cert.MixClip

open Idealize.ShloMosaic Idealize.ShloMosaic.ValueIdx

/-- Signal (b, c) as a row of the [128, 6144] matrix. -/
abbrev rowOf (b : Fin 8) (c : Fin 16) : Fin 128 := ⟨16 * b.val + c.val, by have := b.isLt; have := c.isLt; omega⟩

/-- The valid half of x with the signals laid out as rows, at row (b, c) and valid pixel k: x at (b, c, k). -/
theorem signal_rows {α : Type} (x : (⟨3, ![8, 16, 12288]⟩ : Shape).Idx → α)
    (hs : (⟨3, ![8, 16, 12288]⟩ : Shape).Slices ![0, 0, 0] ⟨3, ![8, 16, 6144]⟩)
    (hc : (⟨3, ![8, 16, 6144]⟩ : Shape).ShapeCasts ⟨2, ![128, 6144]⟩) (b : Fin 8) (c : Fin 16) (k : Fin 6144) :
    shapeCast ⟨2, ![128, 6144]⟩ (extractStridedSlice ⟨3, ![8, 16, 6144]⟩ ![0, 0, 0] x hs) hc (ix2 (rowOf b c) k)
      = x (ix3 b c (pix k)) := by
  refine (shapeCast_apply _ hc (ix2 (rowOf b c) k) (ix3 b c k) ?_).trans ?_
  · rw [Shape.rowMajor_val_three, Shape.rowMajor_val_two]
    show (b.val * 16 + c.val) * 6144 + k.val = (16 * b.val + c.val) * 6144 + k.val
    omega
  · exact extractStridedSlice_apply ![0, 0, 0] x hs (ix3 b c k) (ix3 b c (pix k)) (fun a => match a with
      | ⟨0, _⟩ => by show b.val = 0 + b.val; omega
      | ⟨1, _⟩ => by show c.val = 0 + c.val; omega
      | ⟨2, _⟩ => by show k.val = 0 + k.val; omega)

/-- The rows laid out again as signals, at (b, c, j): the matrix at row (b, c), column j. -/
theorem rows_as_signals {α : Type} (y : (⟨2, ![128, 6144]⟩ : Shape).Idx → α)
    (hc : (⟨2, ![128, 6144]⟩ : Shape).ShapeCasts ⟨3, ![8, 16, 6144]⟩) (b : Fin 8) (c : Fin 16) (j : Fin 6144) :
    shapeCast ⟨3, ![8, 16, 6144]⟩ y hc (ix3 b c j) = y (ix2 (rowOf b c) j) := by
  refine shapeCast_apply y hc (ix3 b c j) (ix2 (rowOf b c) j) ?_
  rw [Shape.rowMajor_val_three, Shape.rowMajor_val_two]
  show (16 * b.val + c.val) * 6144 + j.val = (b.val * 16 + c.val) * 6144 + j.val
  omega

/-- Two [8, 16, 6144] arrays joined along the last axis, at an entry: the first below 6144, the second from there on. -/
theorem joined_halves {α : Type} (u z : (⟨3, ![8, 16, 6144]⟩ : Shape).Idx → α)
    (h : Shape.Concatenates [⟨3, ![8, 16, 6144]⟩, ⟨3, ![8, 16, 6144]⟩] ⟨3, ![8, 16, 12288]⟩ 2)
    (i : (⟨3, ![8, 16, 12288]⟩ : Shape).Idx) :
    concatenate ⟨3, ![8, 16, 12288]⟩ 2 [⟨⟨3, ![8, 16, 6144]⟩, u⟩, ⟨⟨3, ![8, 16, 6144]⟩, z⟩] h i
      = if hlt : (i 2).val < 6144 then u (ix3 (i 0) (i 1) ⟨(i 2).val, hlt⟩)
        else z (ix3 (i 0) (i 1) ⟨(i 2).val - 6144, by have : (i 2).val < 12288 := (i 2).isLt; omega⟩) := by
  by_cases hlt : (i 2).val < 6144
  · rw [dif_pos hlt]
    exact concatenate_pair_apply_left 2 u z h i rfl _ (fun b => match b with
      | ⟨0, _⟩ => rfl
      | ⟨1, _⟩ => rfl
      | ⟨2, _⟩ => rfl)
  · rw [dif_neg hlt]
    exact concatenate_pair_apply_right 2 u z h i rfl rfl _ (fun b hb => match b, hb with
      | ⟨0, _⟩, _ => rfl
      | ⟨1, _⟩, _ => rfl
      | ⟨2, _⟩, hb => absurd rfl hb)
      (by show ((i 2).val - 6144) + 6144 = (i 2).val; omega)

end Cert.MixClip

end
-- ==== Proof.KernelResult.lean ====
/-
  The kernel program's result is the specified function.

  Before the region the host cuts the valid half out of x and lays the signals out as rows: the signal matrix the
  region finds at row (b, c), column k is x at (b, c, k). The response matrix it finds is the argument itself. So the
  output matrix at row (b, c), column j is the clipped mixture of signal (b, c) at valid pixel j. After the region
  the host lays the rows out again as signals and joins an array of the lower constant behind them along the last
  axis: at (b, c, j) the clipped mixture when j < 6144, the lower constant otherwise.
-/
import proofs.«128235_j3118146257523_1_alg».proof.Proof.KernelBlocks
import proofs.«128235_j3118146257523_1_alg».proof.Proof.Layout
import Idealize.ShloMosaic.Lib.StableHlo.Run
import Idealize.ShloMosaic.Lib.IdealHost

set_option maxRecDepth 16384

noncomputable section

namespace Cert.KernelIdeal.MixValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.MixClip

variable (m : (ℓ : Loc nD τ sig) → Buf (Elt Ideal) ℓ) (ρ : Dev nD → PrngReg)

/-- The signal matrix the region finds: the valid half of x, the signals laid out as rows. -/
theorem signals_eq (c : Dev nD) : signals m c = shapeCast S128x6144 (extractStridedSlice S8x16x6144 ![0, 0, 0] (m ((c : Thread nD τ).loc main_arg0)) slices_S8x16x12288_S8x16x6144_0_0_0) shapeCasts_S8x16x6144_S128x6144 := by
  show StableHlo.after hostOps0 (fun b => m (c, b)) (Proc.devRef .tc main_v1) = _
  after_results
  rfl

/-- The response matrix the region finds is the argument. -/
theorem responses_eq (c : Dev nD) : responses m c = m ((c : Thread nD τ).loc main_arg1) := V_main_arg1 m c

/-- The output matrix at row (b, c'), column j: the clipped mixture of signal (b, c') at valid pixel j. -/
theorem rows_mix (c : Dev nD) (b : Fin 8) (c' : Fin 16) (j : Fin 6144) :
    rows (signals m c) (responses m c) (ix2 (rowOf b c') j)
      = mix (m ((c : Thread nD τ).loc main_arg0)) (m ((c : Thread nD τ).loc main_arg1)) b c' j := by
  unfold rows mix
  show clip (∑ k : Fin 6144, signals m c (ix2 (rowOf b c') k) * responses m c (ix2 k j)) = _
  refine congrArg clip (Finset.sum_congr rfl fun k _ => ?_)
  rw [signals_eq, responses_eq, signal_rows]

/-- What the host lines after the region leave in the result array: the specified function of the arguments. -/
theorem tail_eq (c : Dev nD) :
    Pipeline.afterTail₀ cfgs (dats m) 0 (V0 m) [hostOps1] c main_v5
      = result (m ((c : Thread nD τ).loc main_arg0)) (m ((c : Thread nD τ).loc main_arg1)) := by
  have hw : Pipeline.withArrays (cfgs 0).spec c (V0 m c) (fun w => (dats m 0 c).arrAt w (cfgs 0).N) (Proc.devRef .tc main_v2)
      = rows (signals m c) (responses m c) :=
    (Pipeline.withArrays_arr spec0 launch0.win.arr_inj c (V0 m c) (fun w => (dats m 0 c).arrAt w cfg0.N) 2).trans (output_eq m c)
  unfold Pipeline.afterTail₀
  show StableHlo.after hostOps1 _ (Proc.devRef .tc main_v5) = _
  after_results
  rw [hw]
  funext i
  refine (joined_halves _ _ _ i).trans ?_
  unfold result
  by_cases h : (i 2).val < 6144
  · rw [dif_pos h, dif_pos h]
    show shapeCast S8x16x6144 (rows (signals m c) (responses m c)) shapeCasts_S128x6144_S8x16x6144 (ix3 (i 0) (i 1) ⟨(i 2).val, h⟩) = _
    exact (rows_as_signals (rows (signals m c) (responses m c)) shapeCasts_S128x6144_S8x16x6144 (i 0) (i 1) ⟨(i 2).val, h⟩).trans
      (rows_mix m c (i 0) (i 1) ⟨(i 2).val, h⟩)
  · rw [dif_neg h, dif_neg h]
    exact broadcastInDim_scalar_apply bcast_S_S8x16x6144 (constant (F := Ideal) S_ .f32 0x00000000#32) _

/-- Every run of the kernel program, at the extended reals, ends with its result array at the specified function of
    the arguments, the arguments unchanged. -/
theorem run : θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.MixValue

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.LibScatterLast.lean ====
/-
  A general lemma, about no particular program: an overwriting host scatter that replaces the leading n entries along
  the LAST axis of a rank-3 array [A, B, N] by an update array [A, B, n] (jnp's x.at[:, :, :n].set(u): every update
  axis a window axis, the one start index naming the last operand axis, its word 0). Read at entry (a, b, k) it is the
  update's entry (a, b, k) when k < n and the operand's entry otherwise.

  The start of the window is zero on the two leading axes and the index word, read signed, on the last; the window
  coordinate on each axis is the update's own coordinate there; so update (a, b, k) lands on (a', b', k') exactly when
  the three coordinates agree, and no two updates land on one entry.
-/
import proofs.«128235_j3118146257523_1_alg».proof.Proof.LibScatterRead

noncomputable section

open Idealize.ShloMosaic Idealize.ShloMosaic.ValueIdx

namespace Idealize.ShloMosaic.ScatterRead

/-- The start is zero on the two leading axes and the one index word, read signed, on the last. -/
theorem start_plast3 {A B N n : ℕ} (d : ScatterDims ⟨3, ![A, B, N]⟩ ⟨1, ![1]⟩ ⟨3, ![A, B, n]⟩)
    (h1 : d.updateWindowDims = [0, 1, 2]) (h2 : d.insertedWindowDims = []) (h3 : d.scatterDimsToOperandDims = [2]) (h4 : d.indexVectorDim = 0)
    (idx : IVec ⟨1, ![1]⟩ 32) (j : (⟨3, ![A, B, n]⟩ : Shape).Idx) :
    d.start j idx 0 = 0 ∧ d.start j idx 1 = 0 ∧ d.start j idx 2 = (idx (ix1 (0 : Fin 1))).toInt := by
  obtain ⟨uw, iw, sd, iv, wf⟩ := d
  dsimp only at h1 h2 h3 h4; subst h1 h2 h3 h4
  unfold ScatterDims.start
  refine ⟨?_, ?_, ?_⟩
  · rw [dif_neg (show (0 : Fin 3) ∉ [(2 : Fin 3)] by decide)]
  · rw [dif_neg (show (1 : Fin 3) ∉ [(2 : Fin 3)] by decide)]
  · rw [dif_pos (List.mem_singleton.mpr rfl)]
    congr 2
    funext c; refine Fin.ext ?_
    match c with
    | ⟨0, _⟩ => rfl

/-- The window coordinates are the update's own three coordinates. -/
theorem window_plast3 {A B N n : ℕ} (d : ScatterDims ⟨3, ![A, B, N]⟩ ⟨1, ![1]⟩ ⟨3, ![A, B, n]⟩)
    (h1 : d.updateWindowDims = [0, 1, 2]) (h2 : d.insertedWindowDims = []) (h3 : d.scatterDimsToOperandDims = [2]) (h4 : d.indexVectorDim = 0)
    (a : Fin A) (b : Fin B) (k : Fin n) :
    d.window (ix3 a b k) 0 = a.val ∧ d.window (ix3 a b k) 1 = b.val ∧ d.window (ix3 a b k) 2 = k.val := by
  obtain ⟨uw, iw, sd, iv, wf⟩ := d
  dsimp only at h1 h2 h3 h4; subst h1 h2 h3 h4
  unfold ScatterDims.window
  refine ⟨?_, ?_, ?_⟩
  · rw [dif_pos (by simp [ScatterDims.sKept, Shape.kept])]
    rfl
  · rw [dif_pos (by simp [ScatterDims.sKept, Shape.kept])]
    rfl
  · rw [dif_pos (by simp [ScatterDims.sKept, Shape.kept])]
    rfl

/-- At the start word 0, update (a, b, k) lands on entry (a', b', k') exactly when the coordinates agree. -/
theorem resultIdx?_plast3 {A B N n : ℕ} (d : ScatterDims ⟨3, ![A, B, N]⟩ ⟨1, ![1]⟩ ⟨3, ![A, B, n]⟩)
    (h1 : d.updateWindowDims = [0, 1, 2]) (h2 : d.insertedWindowDims = []) (h3 : d.scatterDimsToOperandDims = [2]) (h4 : d.indexVectorDim = 0)
    (idx : IVec ⟨1, ![1]⟩ 32) (hidx : idx (ix1 (0 : Fin 1)) = 0#32)
    (a : Fin A) (b : Fin B) (k : Fin n) (a' : Fin A) (b' : Fin B) (k' : Fin N) :
    d.resultIdx? (ix3 a b k) idx = some (ix3 a' b' k') ↔ a = a' ∧ b = b' ∧ k.val = k'.val := by
  rw [resultIdx?_eq_some_iff]
  have h0 : (0#32 : BitVec 32).toInt = 0 := by decide
  obtain ⟨hs0, hs1, hs2⟩ := start_plast3 d h1 h2 h3 h4 idx (ix3 a b k)
  obtain ⟨hw0, hw1, hw2⟩ := window_plast3 d h1 h2 h3 h4 a b k
  constructor
  · intro h
    have e0 := h 0
    have e1 := h 1
    have e2 := h 2
    rw [hs0, hw0, zero_add] at e0
    rw [hs1, hw1, zero_add] at e1
    rw [hs2, hw2, hidx, h0, zero_add] at e2
    exact ⟨Fin.ext (by exact_mod_cast e0), Fin.ext (by exact_mod_cast e1), by exact_mod_cast e2⟩
  · rintro ⟨rfl, rfl, h⟩ c
    match c with
    | ⟨0, _⟩ =>
      show d.start (ix3 a b k) idx 0 + ((d.window (ix3 a b k) 0 : ℕ) : ℤ) = _
      rw [hs0, hw0, zero_add]
    | ⟨1, _⟩ =>
      show d.start (ix3 a b k) idx 1 + ((d.window (ix3 a b k) 1 : ℕ) : ℤ) = _
      rw [hs1, hw1, zero_add]
    | ⟨2, _⟩ =>
      show d.start (ix3 a b k) idx 2 + ((d.window (ix3 a b k) 2 : ℕ) : ℤ) = _
      rw [hs2, hw2, hidx, h0, zero_add]; exact_mod_cast h

/-- Overwriting the leading n entries along the last axis of an [A, B, N] array (one start index, the word 0; the body
    returns the update): x.at[:, :, :n].set(u) with u : [A, B, n]. Generic in the element type α. -/
theorem scatter_set_prefix_last3 {α : Type} {A B N n : ℕ} (d : ScatterDims ⟨3, ![A, B, N]⟩ ⟨1, ![1]⟩ ⟨3, ![A, B, n]⟩)
    (h1 : d.updateWindowDims = [0, 1, 2]) (h2 : d.insertedWindowDims = []) (h3 : d.scatterDimsToOperandDims = [2]) (h4 : d.indexVectorDim = 0)
    (x : (⟨3, ![A, B, N]⟩ : Shape).Idx → α) (idx : IVec ⟨1, ![1]⟩ 32) (hidx : idx (ix1 (0 : Fin 1)) = 0#32)
    (upd : (⟨3, ![A, B, n]⟩ : Shape).Idx → α) (a : Fin A) (b : Fin B) (k : Fin N) :
    Host.scatter d (fun _ v => v) x idx upd (ix3 a b k) = if h : k.val < n then upd (ix3 a b ⟨k.val, h⟩) else x (ix3 a b k) := by
  by_cases h : k.val < n
  · rw [dif_pos h]
    refine scatter_set_hit d x idx upd (ix3 a b k) (ix3 a b ⟨k.val, h⟩)
      ((resultIdx?_plast3 d h1 h2 h3 h4 idx hidx a b ⟨k.val, h⟩ a b k).2 ⟨rfl, rfl, rfl⟩) ?_
    intro j e
    obtain ⟨a₁, b₁, k₁, rfl⟩ : ∃ a₁ b₁ k₁, j = ix3 a₁ b₁ k₁ := ⟨j 0, j 1, j 2, eq_ix3 j⟩
    obtain ⟨rfl, rfl, hk⟩ := (resultIdx?_plast3 d h1 h2 h3 h4 idx hidx a₁ b₁ k₁ a b k).1 e
    obtain rfl : k₁ = ⟨k.val, h⟩ := Fin.ext hk
    rfl
  · rw [dif_neg h]
    refine scatter_set_miss d x idx upd (ix3 a b k) ?_
    intro j e
    obtain ⟨a₁, b₁, k₁, rfl⟩ : ∃ a₁ b₁ k₁, j = ix3 a₁ b₁ k₁ := ⟨j 0, j 1, j 2, eq_ix3 j⟩
    have hk := ((resultIdx?_plast3 d h1 h2 h3 h4 idx hidx a₁ b₁ k₁ a b k).1 e).2.2
    exact h (hk ▸ k₁.isLt)

end Idealize.ShloMosaic.ScatterRead

end
-- ==== Proof.RefValue.lean ====
/-
  The reference's result is the specified function.

  The reference contracts the valid half of x with the response matrix over the valid pixels (a sum over k of
  x[b, c, k] · r[k, j]), raises it to the lower constant and lowers it to the upper one — the clipped mixture — and
  then overwrites the leading 6144 entries along the last axis of an array of the lower constant with it. Read at
  (b, c, j): the clipped mixture when j < 6144, the lower constant otherwise.
-/
import proofs.«128235_j3118146257523_1_alg».proof.Proof.Gen.ReferenceIdeal.Read
import proofs.«128235_j3118146257523_1_alg».proof.Proof.LibScatterLast
import proofs.«128235_j3118146257523_1_alg».proof.Proof.Spec

noncomputable section

namespace Cert.ReferenceIdeal.MixValue

open Idealize.ShloMosaic Idealize.ShloMosaic.TcCoe Idealize.ShloMosaic.ValueIdx Idealize.SL.Sem
open Cert.ReferenceIdeal Cert.ReferenceIdeal.Gen Cert.ReferenceIdeal.Read Cert.MixClip

/-- The left factor of the contraction at (b, c, j), k: x at (b, c, k), pixel k a valid one. -/
theorem left_index (b : Fin 8) (c : Fin 16) (j k : Fin 6144) :
    idx_main_v0 (lidx_main_v1 (ix3 b c j) k) = ix3 b c (pix k) :=
  funext fun a => Fin.ext (by match a with | ⟨0, _⟩ => rfl | ⟨1, _⟩ => rfl | ⟨2, _⟩ => rfl)

/-- The right factor: the response matrix at (k, j). -/
theorem right_index (b : Fin 8) (c : Fin 16) (j k : Fin 6144) :
    ridx_main_v1 (ix3 b c j) k = ix2 k j :=
  funext fun a => Fin.ext (by match a with | ⟨0, _⟩ => rfl | ⟨1, _⟩ => rfl)

/-- The clipped stage at (b, c, j) is the clipped mixture. -/
theorem mix_stage (x0 : S8x16x12288.Idx → EReal) (x1 : S6144x6144.Idx → EReal) (b : Fin 8) (c : Fin 16) (j : Fin 6144) :
    val_main_v2 (F := Ideal) x0 x1 (ix3 b c j) = mix x0 x1 b c j := by
  rw [val_main_v2_apply, val_main_call0_v4_apply, val_main_call0_v3_apply, val_main_cst_0_apply,
    val_main_call0_v2_apply, val_main_call0_v1_apply, val_main_call0_v0_apply, val_main_cst_apply, val_main_v1_apply]
  simp only [val_main_v0_apply, left_index, right_index]
  rfl

/-- The index array of the overwrite holds the word 0. -/
theorem start_word : val_main_v4 (F := Ideal) (ix1 (0 : Fin 1)) = 0#32 := by
  rw [val_main_v4_apply, val_main_c_apply]

/-- The reference's result array is the specified one. -/
theorem result_eq (x0 : S8x16x12288.Idx → EReal) (x1 : S6144x6144.Idx → EReal) :
    val_main_v5 (F := Ideal) x0 x1 = result x0 x1 := by
  funext i
  obtain ⟨b, c, k, rfl⟩ : ∃ (b : Fin 8) (c : Fin 16) (k : Fin 12288), i = ix3 b c k := ⟨i 0, i 1, i 2, eq_ix3 i⟩
  unfold val_main_v5
  rw [ScatterRead.scatter_set_prefix_last3 scatter_S8x16x12288_S1_S8x16x6144_012_n_2_0 rfl rfl rfl rfl
    (val_main_v3 (F := Ideal)) (val_main_v4 (F := Ideal)) start_word (val_main_v2 (F := Ideal) x0 x1) b c k]
  unfold result
  by_cases h : k.val < 6144
  · rw [dif_pos h]
    show _ = (if h' : k.val < 6144 then mix x0 x1 b c ⟨k.val, h'⟩ else lower)
    rw [dif_pos h]
    exact mix_stage x0 x1 b c ⟨k.val, h⟩
  · rw [dif_neg h]
    show _ = (if h' : k.val < 6144 then mix x0 x1 b c ⟨k.val, h'⟩ else lower)
    rw [dif_neg h, val_main_v3_apply, val_main_cst_1_apply]
    rfl

/-- Every run of the reference ends with its result array at the specified function of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v5_eq _ _).trans (result_eq _ _)), (h c).2⟩)
    (Cert.ReferenceIdeal.Value.run (F := Ideal) m ρ)

end Cert.ReferenceIdeal.MixValue

end
-- ==== Proof.lean ====
/-
  The clipped mixture of sphere signals, tiled over column panels, against the einsum reference.

  Both programs take x : [8, 16, 12288] (8 × 16 signals on a sphere of 12288 pixels, the first 6144 of them valid) and
  a response matrix r : [6144, 6144], and return, at (b, c, j), the sum over the valid pixels k of x[b, c, k] · r[k, j]
  raised to the float constant 0 and lowered to the float constant 1 when j < 6144, and the constant 0 otherwise
  (Proof/Spec.lean: `result`).

  The kernel program cuts the valid half out of x, lays the signals out as the 128 rows of a matrix, and runs one
  region over 12 grid points; point t holds the whole signal matrix and the t-th panel of 512 columns of r, stores
  their clipped product, and writes it back as the t-th column panel of the output. The change of float format in
  front of the product is the identity on extended reals and the product into a zero accumulator is the plain sum
  over k, so what a point stores is a panel of ONE matrix (Proof/KernelPayload.lean, Proof/KernelBlocks.lean); the 12
  panels tile the output. The host then lays the rows out again as signals and joins 6144 zeros behind each along the
  last axis (Proof/Layout.lean, Proof/KernelResult.lean).

  The reference contracts the valid half of x with r in one host contraction, clips with the same two constants in
  the same order, and overwrites the leading 6144 entries along the last axis of a zero array with the result
  (Proof/RefValue.lean; the overwrite read at an entry is Proof/LibScatterLast.lean).

  The two sums range over the same index in the same order and the constants are the same bit patterns on both
  sides, so no law of the extended reals beyond reading each side at an entry is used, and the finiteness of the
  inputs is never opened. The kernel's idealization rewrote nothing, so what it preserves is trivially true. The
  three frames are the generated frame certificates of the two kernel programs and the reference's generated run.
-/
import proofs.«128235_j3118146257523_1_alg».proof.Defs
import proofs.«128235_j3118146257523_1_alg».proof.Proof.Gen.Kernel
import proofs.«128235_j3118146257523_1_alg».proof.Proof.Gen.Kernel.Skeleton
import proofs.«128235_j3118146257523_1_alg».proof.Proof.Gen.Kernel.Launch
import proofs.«128235_j3118146257523_1_alg».proof.Proof.Gen.Kernel.Points
import proofs.«128235_j3118146257523_1_alg».proof.Proof.Gen.Kernel.Frame
import proofs.«128235_j3118146257523_1_alg».proof.Proof.Gen.KernelIdeal
import proofs.«128235_j3118146257523_1_alg».proof.Proof.Gen.KernelIdeal.Skeleton
import proofs.«128235_j3118146257523_1_alg».proof.Proof.Gen.KernelIdeal.Launch
import proofs.«128235_j3118146257523_1_alg».proof.Proof.Gen.KernelIdeal.Points
import proofs.«128235_j3118146257523_1_alg».proof.Proof.Gen.KernelIdeal.Frame
import proofs.«128235_j3118146257523_1_alg».proof.Proof.Gen.ReferenceIdeal
import proofs.«128235_j3118146257523_1_alg».proof.Proof.Gen.ReferenceIdeal.Run
import proofs.«128235_j3118146257523_1_alg».proof.Proof.Gen.Pre_finite_inputs
import proofs.«128235_j3118146257523_1_alg».proof.Proof.KernelResult
import proofs.«128235_j3118146257523_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the result array at the specified function of them. -/
theorem algebraic : Cert.algebraic_KernelIdeal_ReferenceIdeal := by
  intro m ρ m' ρ' _ hagree
  refine ⟨fun c => Cert.MixClip.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MixValue.run m ρ, ?_⟩
  refine (θ_run Cert.ReferenceIdeal.defs _ _).mono (fun _ h c => ⟨(h c).1.trans ?_, (h c).2⟩)
    (Cert.ReferenceIdeal.MixValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
